-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1433 : Shape := ⟨2, ![10000, 1433]⟩
abbrev S10000x10000 : Shape := ⟨2, ![10000, 10000]⟩
abbrev S1433x512 : Shape := ⟨2, ![1433, 512]⟩
abbrev S512 : Shape := ⟨1, ![512]⟩
abbrev S512x7 : Shape := ⟨2, ![512, 7]⟩
abbrev S7 : Shape := ⟨1, ![7]⟩
abbrev S_ : Shape := ⟨0, ![]⟩

class Facts : Prop where
  bcast_S_S10000x1433 : S_.BroadcastsInDim S10000x1433 (![] : Fin 0 → Fin S10000x1433.rank)
  reducesTo_S10000x1433_S_d0_1 : S10000x1433.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1433x512 : S_.BroadcastsInDim S1433x512 (![] : Fin 0 → Fin S1433x512.rank)
  reducesTo_S1433x512_S_d0_1 : S1433x512.ReducesTo [0, 1] S_
  bcast_S_S512 : S_.BroadcastsInDim S512 (![] : Fin 0 → Fin S512.rank)
  reducesTo_S512_S_d0 : S512.ReducesTo [0] S_
  bcast_S_S512x7 : S_.BroadcastsInDim S512x7 (![] : Fin 0 → Fin S512x7.rank)
  reducesTo_S512x7_S_d0_1 : S512x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S512x7 .f32) (main_arg5 : FVec F S7 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x7 .f32 := Host.absf main_arg4
  let main_cst_6 : FVec F S_ .f32 := constant S_ .f32 0x7F800000#32
  let main_v20 : FVec F S512x7 .f32 := broadcastInDim S512x7 ![] bcast_S_S512x7 main_cst_6
  let main_v21 : IVec S512x7 1 := cmpf .olt main_v19 main_v20
  let main_c_7 : IVec S_ 1 := constantI S_ 1 1#1
  let main_v22 : IVec S_ 1 := (fun x v => Host.reduce IntOp.andi x v reducesTo_S512x7_S_d0_1 h_S_) main_v21 main_c_7
  let main_v23 : IVec S_ 1 := andi main_v18 main_v22
  let main_v24 : FVec F S7 .f32 := Host.absf main_arg5
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S10000x1433 .f32) (main_arg1 : FVec F S10000x10000 .f32) (main_arg2 : FVec F S1433x512 .f32) (main_arg3 : FVec F S512 .f32) (main_arg4 : FVec F S512x7 .f32) (main_arg5 : FVec F S7 .f32) : IVec S_ 1 :=
  let main_v0 : FVec F S10000x1433 .f32 := Host.absf main_arg0
  let main_cst : FVec F S_ .f32 := constant S_ .f32 0x7F800000#32
  let main_v1 : FVec F S10000x1433 .f32 := broadcastInDim S10000x1433 ![] bcast_S_S10000x1433 main_cst
  let main_v2 : IVec S10000x1433 1 := cmpf .olt main_v0 main_v1
  let main_c : IVec S_ 1 := constantI S_ 1 1#1
  let main_v3 : IVec S_ 1 := (fun x v => Host.reduce IntOp.andi x v reducesTo_S10000x1433_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1433x512 .f32 := Host.absf main_arg2
  let main_cst_2 : FVec F S_ .f32 := constant S_ .f32 0x7F800000#32
  let main_v10 : FVec F S1433x512 .f32 := broadcastInDim S1433x512 ![] bcast_S_S1433x512 main_cst_2
  let main_v11 : IVec S1433x512 1 := cmpf .olt main_v9 main_v10
  let main_c_3 : IVec S_ 1 := constantI S_ 1 1#1
  let main_v12 : IVec S_ 1 := (fun x v => Host.reduce IntOp.andi x v reducesTo_S1433x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S10000x1433 : Shape := ⟨2, ![10000, 1433]⟩
abbrev S10000x10000 : Shape := ⟨2, ![10000, 10000]⟩
abbrev S1433x512 : Shape := ⟨2, ![1433, 512]⟩
abbrev S512 : Shape := ⟨1, ![512]⟩
abbrev S512x7 : Shape := ⟨2, ![512, 7]⟩
abbrev S7 : Shape := ⟨1, ![7]⟩
abbrev S1x512 : Shape := ⟨2, ![1, 512]⟩
abbrev S1x7 : Shape := ⟨2, ![1, 7]⟩
abbrev S10000x512 : Shape := ⟨2, ![10000, 512]⟩
abbrev S1000x1433 : Shape := ⟨2, ![1000, 1433]⟩
abbrev S1000x512 : Shape := ⟨2, ![1000, 512]⟩
abbrev S10000x7 : Shape := ⟨2, ![10000, 7]⟩
abbrev S400x10000 : Shape := ⟨2, ![400, 10000]⟩
abbrev S400x7 : Shape := ⟨2, ![400, 7]⟩
abbrev S400x512 : Shape := ⟨2, ![400, 512]⟩
abbrev S400 : Shape := ⟨1, ![400]⟩
abbrev S400x1 : Shape := ⟨2, ![400, 1]⟩

abbrev nBuf : Space → Nat
  | .hbm => 11
  | .vmem => 18
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x512, .f32⟩
  | .hbm, ⟨3, _⟩ => ⟨S512, .f32⟩
  | .hbm, ⟨4, _⟩ => ⟨S512x7, .f32⟩
  | .hbm, ⟨5, _⟩ => ⟨S7, .f32⟩
  | .hbm, ⟨6, _⟩ => ⟨S1x512, .f32⟩
  | .hbm, ⟨7, _⟩ => ⟨S1x7, .f32⟩
  | .hbm, ⟨8, _⟩ => ⟨S10000x512, .f32⟩
  | .hbm, ⟨9, _⟩ => ⟨S10000x7, .f32⟩
  | .hbm, ⟨10, _⟩ => ⟨S10000x7, .f32⟩
  | .local _ .vmem, ⟨0, _⟩ => ⟨S1000x1433, .f32⟩
  | .local _ .vmem, ⟨1, _⟩ => ⟨S1000x1433, .f32⟩
  | .local _ .vmem, ⟨2, _⟩ => ⟨S1433x512, .f32⟩
  | .local _ .vmem, ⟨3, _⟩ => ⟨S1000x512, .f32⟩
  | .local _ .vmem, ⟨4, _⟩ => ⟨S1000x512, .f32⟩
  | .local _ .vmem, ⟨5, _⟩ => ⟨S400x10000, .f32⟩
  | .local _ .vmem, ⟨6, _⟩ => ⟨S400x10000, .f32⟩
  | .local _ .vmem, ⟨7, _⟩ => ⟨S10000x512, .f32⟩
  | .local _ .vmem, ⟨8, _⟩ => ⟨S1x512, .f32⟩
  | .local _ .vmem, ⟨9, _⟩ => ⟨S512x7, .f32⟩
  | .local _ .vmem, ⟨10, _⟩ => ⟨S400x7, .f32⟩
  | .local _ .vmem, ⟨11, _⟩ => ⟨S400x7, .f32⟩
  | .local _ .vmem, ⟨12, _⟩ => ⟨S400x10000, .f32⟩
  | .local _ .vmem, ⟨13, _⟩ => ⟨S400x10000, .f32⟩
  | .local _ .vmem, ⟨14, _⟩ => ⟨S10000x7, .f32⟩
  | .local _ .vmem, ⟨15, _⟩ => ⟨S1x7, .f32⟩
  | .local _ .vmem, ⟨16, _⟩ => ⟨S400x7, .f32⟩
  | .local _ .vmem, ⟨17, _⟩ => ⟨S400x7, .f32⟩
  | _, _ => ⟨S10000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x7 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S512_S1x512 : S512.ShapeCasts S1x512
  shapeCasts_S7_S1x7 : S7.ShapeCasts S1x7
  inb_S1000x1433_S1000x1433_0_0 : ∀ a, (![0, 0] : Fin 2 → Nat) a + S1000x1433.size a ≤ S1000x1433.size a
  h_S1000x1433 : 0 < S1000x1433.numel
  inb_S1433x512_S1433x512_0_0 : ∀ a, (![0, 0] : Fin 2 → Nat) a + S1433x512.size a ≤ S1433x512.size a
  h_S1433x512 : 0 < S1433x512.numel
  inb_S1000x512_S1000x512_0_0 : ∀ a, (![0, 0] : Fin 2 → Nat) a + S1000x512.size a ≤ S1000x512.size a
  h_S1000x512 : 0 < S1000x512.numel
  inb_S400x10000_S400x10000_0_0 : ∀ a, (![0, 0] : Fin 2 → Nat) a + S400x10000.size a ≤ S400x10000.size a
  h_S400x10000 : 0 < S400x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S512x7_S512x7_0_0 : ∀ a, (![0, 0] : Fin 2 → Nat) a + S512x7.size a ≤ S512x7.size a
  h_S512x7 : 0 < S512x7.numel
  inb_S400x7_S400x7_0_0 : ∀ a, (![0, 0] : Fin 2 → Nat) a + S400x7.size a ≤ S400x7.size a
  h_S400x7 : 0 < S400x7.numel
  inb_S10000x7_S10000x7_0_0 : ∀ a, (![0, 0] : Fin 2 → Nat) a + S10000x7.size a ≤ S10000x7.size a
  h_S10000x7 : 0 < S10000x7.numel
  shapeCasts_S10000x7_S10000x7 : S10000x7.ShapeCasts S10000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S400x7 : S1x7.Broadcasts S400x7
  reduces_S400x7_S400 : S400x7.Reduces [1] S400
  shapeCasts_S400_S400x1 : S400.ShapeCasts S400x1
  broadcasts_S400x1_S400x7 : S400x1.Broadcasts S400x7
  dot_S1000x1433_S1433x512_S1000x512_1_0_0_1_n_n_wf : DotDims.WF S1000x1433 S1433x512 S1000x512 [1] [0] [0] [1] [] []
  dot_S400x10000_S10000x512_S400x512_1_0_0_1_n_n_wf : DotDims.WF S400x10000 S10000x512 S400x512 [1] [0] [0] [1] [] []
  dot_S400x512_S512x7_S400x7_1_0_0_1_n_n_wf : DotDims.WF S400x512 S512x7 S400x7 [1] [0] [0] [1] [] []
  dot_S400x10000_S10000x7_S400x7_1_0_0_1_n_n_wf : DotDims.WF S400x10000 S10000x7 S400x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S10000x1433.size a
  hwx0_0 : ∀ i : grid0.Coords, EltTy.bits .f32 = 32 ∨ (Rect.block (s := S10000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x512.size a ≤ S1433x512.size a
  hwx0_1 : ∀ i : grid0.Coords, EltTy.bits .f32 = 32 ∨ (Rect.block (s := S1433x512) S1433x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .f32 = 32 ∨ (Rect.block (s := S10000x512) S1000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .f32 = 32 ∨ (Rect.block (s := S10000x512) S10000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x7.size a ≤ S512x7.size a
  hwx1_3 : ∀ i : grid1.Coords, EltTy.bits .f32 = 32 ∨ (Rect.block (s := S512x7) S512x7.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x7.size a ≤ S10000x7.size a
  hwx1_4 : ∀ i : grid1.Coords, EltTy.bits .f32 = 32 ∨ (Rect.block (s := S10000x7) S400x7.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x7.size a ≤ S10000x7.size a
  hwx2_1 : ∀ i : grid2.Coords, EltTy.bits .f32 = 32 ∨ (Rect.block (s := S10000x7) S10000x7.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x7.size a ≤ S1x7.size a
  hwx2_2 : ∀ i : grid2.Coords, EltTy.bits .f32 = 32 ∨ (Rect.block (s := S1x7) S1x7.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x7.size a ≤ S10000x7.size a
  hwx2_3 : ∀ i : grid2.Coords, EltTy.bits .f32 = 32 ∨ (Rect.block (s := S10000x7) S400x7.size (cc2_transform_3 i) (hinb2_3 i)).WholeWords (EltTy.packing .f32)

variable [Facts₀]

def dot_S1000x1433_S1433x512_S1000x512_1_0_0_1_n_n : DotDims S1000x1433 S1433x512 S1000x512 where
  lhsContracting := [1]
  rhsContracting := [0]
  lhsNonContracting := [0]
  rhsNonContracting := [1]
  lhsBatch := []
  rhsBatch := []
  wf := dot_S1000x1433_S1433x512_S1000x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf
def dot_S400x512_S512x7_S400x7_1_0_0_1_n_n : DotDims S400x512 S512x7 S400x7 where
  lhsContracting := [1]
  rhsContracting := [0]
  lhsNonContracting := [0]
  rhsNonContracting := [1]
  lhsBatch := []
  rhsBatch := []
  wf := dot_S400x512_S512x7_S400x7_1_0_0_1_n_n_wf
def dot_S400x10000_S10000x7_S400x7_1_0_0_1_n_n : DotDims S400x10000 S10000x7 S400x7 where
  lhsContracting := [1]
  rhsContracting := [0]
  lhsNonContracting := [0]
  rhsNonContracting := [1]
  lhsBatch := []
  rhsBatch := []
  wf := dot_S400x10000_S10000x7_S400x7_1_0_0_1_n_n_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x7.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S400x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x1433 : Shape := ⟨2, ![10000, 1433]⟩
abbrev S10000x10000 : Shape := ⟨2, ![10000, 10000]⟩
abbrev S1433x512 : Shape := ⟨2, ![1433, 512]⟩
abbrev S512 : Shape := ⟨1, ![512]⟩
abbrev S512x7 : Shape := ⟨2, ![512, 7]⟩
abbrev S7 : Shape := ⟨1, ![7]⟩
abbrev S10000x512 : Shape := ⟨2, ![10000, 512]⟩
abbrev S1x512 : Shape := ⟨2, ![1, 512]⟩
abbrev S_ : Shape := ⟨0, ![]⟩
abbrev S10000x7 : Shape := ⟨2, ![10000, 7]⟩
abbrev S1x7 : Shape := ⟨2, ![1, 7]⟩
abbrev S10000 : Shape := ⟨1, ![10000]⟩
abbrev S10000x1 : Shape := ⟨2, ![10000, 1]⟩

abbrev nBuf : Space → Nat
  | .hbm => 33
  | .vmem => 0
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x512, .f32⟩
  | .hbm, ⟨3, _⟩ => ⟨S512, .f32⟩
  | .hbm, ⟨4, _⟩ => ⟨S512x7, .f32⟩
  | .hbm, ⟨5, _⟩ => ⟨S7, .f32⟩
  | .hbm, ⟨6, _⟩ => ⟨S10000x512, .f32⟩
  | .hbm, ⟨7, _⟩ => ⟨S10000x512, .f32⟩
  | .hbm, ⟨8, _⟩ => ⟨S1x512, .f32⟩
  | .hbm, ⟨9, _⟩ => ⟨S10000x512, .f32⟩
  | .hbm, ⟨10, _⟩ => ⟨S10000x512, .f32⟩
  | .hbm, ⟨11, _⟩ => ⟨S_, .f32⟩
  | .hbm, ⟨12, _⟩ => ⟨S10000x512, .f32⟩
  | .hbm, ⟨13, _⟩ => ⟨S10000x512, .f32⟩
  | .hbm, ⟨14, _⟩ => ⟨S10000x7, .f32⟩
  | .hbm, ⟨15, _⟩ => ⟨S10000x7, .f32⟩
  | .hbm, ⟨16, _⟩ => ⟨S1x7, .f32⟩
  | .hbm, ⟨17, _⟩ => ⟨S10000x7, .f32⟩
  | .hbm, ⟨18, _⟩ => ⟨S10000x7, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x7, .f32⟩
  | .hbm, ⟨26, _⟩ => ⟨S10000x7, .f32⟩
  | .hbm, ⟨27, _⟩ => ⟨S10000x7, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x7, .f32⟩
  | .hbm, ⟨32, _⟩ => ⟨S10000x7, .f32⟩
  | _, _ => ⟨S10000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  reducesTo_S10000x7_S10000_d1 : S10000x7.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x7_0_1 : S10000x1.BroadcastsInDim S10000x7 (![0, 1] : Fin 2 → Fin S10000x7.rank)
  dot_S10000x1433_S1433x512_S10000x512_1_0_0_1_n_n_wf : DotDims.WF S10000x1433 S1433x512 S10000x512 [1] [0] [0] [1] [] []
  dot_S10000x10000_S10000x512_S10000x512_1_0_0_1_n_n_wf : DotDims.WF S10000x10000 S10000x512 S10000x512 [1] [0] [0] [1] [] []
  dot_S10000x512_S512x7_S10000x7_1_0_0_1_n_n_wf : DotDims.WF S10000x512 S512x7 S10000x7 [1] [0] [0] [1] [] []
  dot_S10000x10000_S10000x7_S10000x7_1_0_0_1_n_n_wf : DotDims.WF S10000x10000 S10000x7 S10000x7 [1] [0] [0] [1] [] []

variable [Facts₀]

def dot_S10000x1433_S1433x512_S10000x512_1_0_0_1_n_n : DotDims S10000x1433 S1433x512 S10000x512 where
  lhsContracting := [1]
  rhsContracting := [0]
  lhsNonContracting := [0]
  rhsNonContracting := [1]
  lhsBatch := []
  rhsBatch := []
  wf := dot_S10000x1433_S1433x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x7_S10000x7_1_0_0_1_n_n : DotDims S10000x512 S512x7 S10000x7 where
  lhsContracting := [1]
  rhsContracting := [0]
  lhsNonContracting := [0]
  rhsNonContracting := [1]
  lhsBatch := []
  rhsBatch := []
  wf := dot_S10000x512_S512x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf

class Facts : Prop extends Facts₀ where

variable [Facts]
-- ==== Proof.LibDenseRows.lean ====
/-
  Dense layers over matrices of extended reals, row by row.

  A matrix product (mm), a bias row added to every row (addRow), the positive part (relu) and a row-wise
  softmax (softmaxRows: each entry's exponential of its distance to the row's maximum, over the row's sum of those
  exponentials) are stated here as plain functions of indices, over matrices of any extents. Three kinds of facts:

  * each is ROW-LOCAL: row p of the result depends on row p of the first operand only, so that the result computed
    from a band of rows of a matrix is that band of rows of the result computed from the whole matrix
    (mm_rows, addRow_rows, relu_rows, softmaxRows_rows);
  * the vector-unit spelling of each (a product accumulated into a zero splat, a one-row cast broadcast down the rows,
    a lane maximum and a lane sum kept as a column and broadcast across the row) is that function;
  * the host spelling of each (a dot_general, broadcast_in_dims, one-operand reduces) is that function too.

  Nothing here uses more of the extended reals than 0 + x = x and max ⊥ x = x, so every statement holds at the
  infinities as well.
-/
import Idealize.ShloMosaic.Lib.StackMember
import Idealize.ShloMosaic.Lib.KernelVsHost
import Idealize.ShloMosaic.Lib.ValueIdx
import Idealize.ShloMosaic.Lib.ValueLayout
import Idealize.ShloMosaic.PureOps.Ideal.Laws

noncomputable section

open scoped BigOperators

namespace DenseRows

open Idealize.ShloMosaic Idealize.ShloMosaic.ValueIdx

/-- An m × n matrix of extended reals, indexed by (row, column). -/
abbrev Mat (m n : Nat) : Type := FVec Ideal (⟨2, ![m, n]⟩ : Shape) .f32

/-! ## The functions -/

/-- The matrix product: entry (a, b) is the sum over c of A (a, c) · B (c, b). -/
def mm {m k n : Nat} (A : Mat m k) (B : Mat k n) : Mat m n :=
  fun i => ∑ c : Fin k, A (ix2 (i 0) c) * B (ix2 c (i 1))

/-- A one-row matrix added to every row. -/
def addRow {m n : Nat} (Z : Mat m n) (r : Mat 1 n) : Mat m n :=
  fun i => Z i + r (ix2 (0 : Fin 1) (i 1))

/-- The positive part, entry by entry. -/
def relu {m n : Nat} (Z : Mat m n) : Mat m n := fun i => max (Z i) 0

/-- The largest entry of row a (the bottom element for a matrix with no columns). -/
def rowMax {m n : Nat} (Z : Mat m n) (a : Fin m) : EReal :=
  (Finset.univ : Finset (Fin n)).fold max ⊥ (fun c => Z (ix2 a c))

/-- The row's exponentials of the distances to the row's maximum. -/
def rowExp {m n : Nat} (Z : Mat m n) : Mat m n := fun i => Ideal.exp (Z i - rowMax Z (i 0))

/-- Row-wise softmax: each such exponential over the sum of its row's. -/
def softmaxRows {m n : Nat} (Z : Mat m n) : Mat m n :=
  fun i => Ideal.div (rowExp Z i) (∑ c : Fin n, rowExp Z (ix2 (i 0) c))

/-- A vector as a one-row matrix. -/
def asRow {n : Nat} (b : FVec Ideal (⟨1, ![n]⟩ : Shape) .f32) : Mat 1 n := fun i => b (ix1 (i 1))

theorem mm_apply {m k n : Nat} (A : Mat m k) (B : Mat k n) (a : Fin m) (b : Fin n) :
    mm A B (ix2 a b) = ∑ c : Fin k, A (ix2 a c) * B (ix2 c b) := rfl

/-! ## Row-locality -/

/-- Row p of X being row P of A, row p of X · B is row P of A · B. -/
theorem mm_rows {m M k n : Nat} (X : Mat m k) (A : Mat M k) (B : Mat k n) (p : Fin m) (P : Fin M)
    (h : ∀ c, X (ix2 p c) = A (ix2 P c)) (q : Fin n) : mm X B (ix2 p q) = mm A B (ix2 P q) := by
  rw [mm_apply, mm_apply]
  exact Finset.sum_congr rfl fun c _ => by rw [h c]

theorem addRow_rows {m M n : Nat} (X : Mat m n) (A : Mat M n) (r : Mat 1 n) (p : Fin m) (P : Fin M)
    (h : ∀ c, X (ix2 p c) = A (ix2 P c)) (q : Fin n) : addRow X r (ix2 p q) = addRow A r (ix2 P q) := by
  show X (ix2 p q) + r (ix2 (0 : Fin 1) q) = A (ix2 P q) + r (ix2 (0 : Fin 1) q)
  rw [h q]

theorem relu_rows {m M n : Nat} (X : Mat m n) (A : Mat M n) (p : Fin m) (P : Fin M)
    (h : ∀ c, X (ix2 p c) = A (ix2 P c)) (q : Fin n) : relu X (ix2 p q) = relu A (ix2 P q) := by
  show max (X (ix2 p q)) 0 = max (A (ix2 P q)) 0
  rw [h q]

theorem rowMax_rows {m M n : Nat} (X : Mat m n) (A : Mat M n) (p : Fin m) (P : Fin M)
    (h : ∀ c, X (ix2 p c) = A (ix2 P c)) : rowMax X p = rowMax A P := by
  unfold rowMax
  rw [show (fun c => X (ix2 p c)) = fun c => A (ix2 P c) from funext h]

theorem rowExp_rows {m M n : Nat} (X : Mat m n) (A : Mat M n) (p : Fin m) (P : Fin M)
    (h : ∀ c, X (ix2 p c) = A (ix2 P c)) (q : Fin n) : rowExp X (ix2 p q) = rowExp A (ix2 P q) := by
  show Ideal.exp (X (ix2 p q) - rowMax X p) = Ideal.exp (A (ix2 P q) - rowMax A P)
  rw [h q, rowMax_rows X A p P h]

theorem softmaxRows_rows {m M n : Nat} (X : Mat m n) (A : Mat M n) (p : Fin m) (P : Fin M)
    (h : ∀ c, X (ix2 p c) = A (ix2 P c)) (q : Fin n) : softmaxRows X (ix2 p q) = softmaxRows A (ix2 P q) := by
  show Ideal.div (rowExp X (ix2 p q)) (∑ c : Fin n, rowExp X (ix2 p c))
    = Ideal.div (rowExp A (ix2 P q)) (∑ c : Fin n, rowExp A (ix2 P c))
  rw [rowExp_rows X A p P h q]
  exact congrArg _ (Finset.sum_congr rfl fun c _ => rowExp_rows X A p P h c)

end DenseRows

end
-- ==== Proof.LibDenseForms.lean ====
/-
  The two spellings of the dense-layer functions of LibDenseRows.

  The vector unit multiplies into a zero accumulator, broadcasts a one-row value down the rows, and keeps a lane
  maximum or a lane sum as a column that it broadcasts across the row; the host program contracts with dot_general,
  broadcasts in named dimensions and reduces with an initial value. Read at the extended reals, each spelling is the
  plain function of indices: the accumulator and the sum's initial value are 0 (0 + x = x), the maximum's initial
  value is the bottom element (max ⊥ x = x), and a broadcast reads its operand at the index with the broadcast
  coordinate dropped.
-/
import proofs.«174805_g25812753449811_rerun558fix_472_5_alg».proof.Proof.LibDenseRows

noncomputable section

open scoped BigOperators

namespace DenseRows

open Idealize.ShloMosaic Idealize.ShloMosaic.ValueIdx

/-- A length-m vector of extended reals. -/
abbrev Col (m : Nat) : Type := FVec Ideal (⟨1, ![m]⟩ : Shape) .f32

/-! ## The product -/

/-- The host's contraction of an m×k by a k×n matrix is the matrix product. -/
theorem dotGeneral_plain_eq_mm {m k n : Nat} (prec : Option ContractPrecision) (A : Mat m k) (B : Mat k n) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The vector unit's product accumulated into the zero splat is the matrix product. -/
theorem matmul_plain_eq_mm {m k n : Nat} (prec : Option ContractPrecision) (A : Mat m k) (B : Mat k n) :
    matmul (DotDims.plain m k n) prec A B (constant (⟨2, ![m, n]⟩ : Shape) .f32 0x00000000#32) = mm A B :=
  (matmul_zero_eq_dotGeneral _ prec A B).trans (dotGeneral_plain_eq_mm prec A B)

/-! ## A bias row and the positive part -/

/-- A one-row value broadcast down the rows and added: the bias row added to every row. -/
theorem bias_vector_form {m n : Nat} (Z : Mat m n) (r : Mat 1 n)
    (hb : (⟨2, ![1, n]⟩ : Shape).Broadcasts ⟨2, ![m, n]⟩) :
    addf Z (broadcastTo (⟨2, ![m, n]⟩ : Shape) r hb) = addRow Z r := by
  funext i
  obtain ⟨p, q, rfl⟩ : ∃ (p : Fin m) (q : Fin n), i = ix2 p q := ⟨i 0, i 1, eq_ix2 i⟩
  show Z (ix2 p q) + broadcastTo (⟨2, ![m, n]⟩ : Shape) r hb (ix2 p q) = Z (ix2 p q) + r (ix2 (0 : Fin 1) q)
  rw [broadcastTo_1b_ab_apply]

/-- The host's broadcast of a one-row matrix in dimensions (0, 1), added: the same. -/
theorem bias_host_form {m n : Nat} (Z : Mat m n) (r : Mat 1 n)
    (hb : (⟨2, ![1, n]⟩ : Shape).BroadcastsInDim ⟨2, ![m, n]⟩ ![0, 1]) :
    addf Z (broadcastInDim (⟨2, ![m, n]⟩ : Shape) ![0, 1] hb r) = addRow Z r := by
  funext i
  obtain ⟨p, q, rfl⟩ : ∃ (p : Fin m) (q : Fin n), i = ix2 p q := ⟨i 0, i 1, eq_ix2 i⟩
  show Z (ix2 p q) + broadcastInDim (⟨2, ![m, n]⟩ : Shape) ![0, 1] hb r (ix2 p q) = Z (ix2 p q) + r (ix2 (0 : Fin 1) q)
  rw [broadcastInDim_oneRow_apply]

/-- The maximum with a splat of the zero word is the positive part. -/
theorem relu_vector_form {m n : Nat} (Z : Mat m n) :
    maximumf Z (broadcast (⟨2, ![m, n]⟩ : Shape) (Scalar.ofBits (F := Ideal) .f32 0x00000000#32)) = relu Z := by
  funext i
  show max (Z i) (Ideal.ofBits .f32 0x00000000#32) = max (Z i) 0
  rw [Ideal.ofBits_zero_f32]

/-- The maximum with the host's broadcast of the zero constant is the positive part. -/
theorem relu_host_form {m n : Nat} (Z : Mat m n)
    (hb : (⟨0, ![]⟩ : Shape).BroadcastsInDim ⟨2, ![m, n]⟩ ![]) :
    maximumf Z (broadcastInDim (⟨2, ![m, n]⟩ : Shape) ![] hb (constant (⟨0, ![]⟩ : Shape) .f32 0x00000000#32)) = relu Z := by
  funext i
  show max (Z i) (Ideal.ofBits .f32 0x00000000#32) = max (Z i) 0
  rw [Ideal.ofBits_zero_f32]

/-- A vector cast to one row is that row. -/
theorem shapeCast_asRow {n : Nat} (b : Col n) (h : (⟨1, ![n]⟩ : Shape).ShapeCasts ⟨2, ![1, n]⟩) :
    shapeCast (⟨2, ![1, n]⟩ : Shape) b h = asRow b := by
  funext i
  obtain ⟨u, q, rfl⟩ : ∃ (u : Fin 1) (q : Fin n), i = ix2 u q := ⟨i 0, i 1, eq_ix2 i⟩
  exact shapeCast_a_1a_apply b h u q

/-- A vector broadcast along axis 1 of a one-row matrix is that row. -/
theorem broadcastInDim_asRow {n : Nat} (b : Col n) (h : (⟨1, ![n]⟩ : Shape).BroadcastsInDim ⟨2, ![1, n]⟩ ![1]) :
    broadcastInDim (⟨2, ![1, n]⟩ : Shape) ![1] h b = asRow b := by
  funext i
  obtain ⟨u, q, rfl⟩ : ∃ (u : Fin 1) (q : Fin n), i = ix2 u q := ⟨i 0, i 1, eq_ix2 i⟩
  refine broadcastInDim_apply ![1] h b (ix2 u q) (ix1 q) fun a => ?_
  match a with
  | ⟨0, _⟩ =>
    show q.val = if n = 1 then 0 else q.val
    split
    · have := q.isLt; omega
    · rfl

/-! ## A row's maximum and a row's sum, kept as a column -/

theorem ofBits_neg_inf : Ideal.ofBits .f32 0xFF800000#32 = (⊥ : EReal) := by simp [Ideal.ofBits, Ideal.ieee]

/-- The reduced index p with column k put back is (p, k). -/
theorem lift_row {m n : Nat} (h : Shape.Reduces (⟨2, ![m, n]⟩ : Shape) [(1 : Fin 2)] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The vector unit's lane maximum from minus infinity is the row's maximum. -/
theorem laneMax_eq_rowMax {m n : Nat} (Z : Mat m n) (h : Shape.Reduces (⟨2, ![m, n]⟩ : Shape) [(1 : Fin 2)] (⟨1, ![m]⟩ : Shape))
    (hφ : FKind.Formats .f32) (hacc : (0xFF800000#32 : BitVec 32) = FKind.maximumf.neutral .f32 hφ) (p : Fin m) :
    multiReduction .maximumf [(1 : Fin 2)] (⟨1, ![m]⟩ : Shape) Z 0xFF800000#32 h hφ hacc (ix1 p) = rowMax Z p := by
  rw [Ideal.multiReduction_maximumf_single]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The vector unit's lane sum from zero is the row's sum. -/
theorem laneSum_eq_rowSum {m n : Nat} (E : Mat m n) (h : Shape.Reduces (⟨2, ![m, n]⟩ : Shape) [(1 : Fin 2)] (⟨1, ![m]⟩ : Shape))
    (hφ : FKind.Formats .f32) (hacc : (0x00000000#32 : BitVec 32) = FKind.add.neutral .f32 hφ) (p : Fin m) :
    multiReduction .add [(1 : Fin 2)] (⟨1, ![m]⟩ : Shape) E 0x00000000#32 h hφ hacc (ix1 p) = ∑ c : Fin n, E (ix2 p c) := by
  rw [Ideal.multiReduction_add_single]
  show ∑ k : Fin n, E (h.lift (ix1 p) k) = _
  exact Finset.sum_congr rfl fun k _ => congrArg E (lift_row h p k)

/-- The host's reduce with a maximum body from minus infinity is the row's maximum. -/
theorem hostMax_eq_rowMax {m n : Nat} (Z : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduce FloatOps.maximumf Z (constant (⟨0, ![]⟩ : Shape) .f32 0xFF800000#32) h' hu (ix1 p) = rowMax Z p := by
  rw [Host.reduce_eq_fold_single FloatOps.maximumf Z _ h' h hu]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The host's sum over axis 1 from zero is the row's sum. -/
theorem hostSum_eq_rowSum {m n : Nat} (E : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduceAdd E (constant (⟨0, ![]⟩ : Shape) .f32 0x00000000#32) h' hu (ix1 p) = ∑ c : Fin n, E (ix2 p c) := by
  show Ideal.hostReduceAdd h' E (Ideal.ofBits .f32 0x00000000#32) (ix1 p) = _
  rw [Ideal.hostReduceAdd_single h' h, Ideal.ofBits_zero_f32, zero_add]
  show ∑ k : Fin n, E (h.lift (ix1 p) k) = _
  exact Finset.sum_congr rfl fun k _ => congrArg E (lift_row h p k)

/-- A vector cast to a column and broadcast across the row reads, at (p, q), the vector at p. -/
theorem column_vector_form {m n : Nat} (v : Col m) (hc : (⟨1, ![m]⟩ : Shape).ShapeCasts ⟨2, ![m, 1]⟩)
    (hb : (⟨2, ![m, 1]⟩ : Shape).Broadcasts ⟨2, ![m, n]⟩) (p : Fin m) (q : Fin n) :
    broadcastTo (⟨2, ![m, n]⟩ : Shape) (shapeCast (⟨2, ![m, 1]⟩ : Shape) v hc) hb (ix2 p q) = v (ix1 p) := by
  rw [broadcastTo_apply _ hb (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact shapeCast_apply v hc _ (ix1 p) (by
    rw [Shape.rowMajor_val_one, Shape.rowMajor_val_two]
    show p.val = p.val * 1 + 0
    omega)

/-- The host's two broadcasts (a vector to a column, the column across the row) read, at (p, q), the vector at p. -/
theorem column_host_form {m n : Nat} (v : Col m) (h1 : (⟨1, ![m]⟩ : Shape).BroadcastsInDim ⟨2, ![m, 1]⟩ ![0])
    (h2 : (⟨2, ![m, 1]⟩ : Shape).BroadcastsInDim ⟨2, ![m, n]⟩ ![0, 1]) (p : Fin m) (q : Fin n) :
    broadcastInDim (⟨2, ![m, n]⟩ : Shape) ![0, 1] h2 (broadcastInDim (⟨2, ![m, 1]⟩ : Shape) ![0] h1 v) (ix2 p q) = v (ix1 p) := by
  rw [broadcastInDim_apply ![0, 1] h2 _ (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact broadcastInDim_apply ![0] h1 v (ix2 p (0 : Fin 1)) (ix1 p) (fun ax => by
    match ax with
    | ⟨0, _⟩ =>
      show p.val = if m = 1 then 0 else p.val
      split
      · have := p.isLt; omega
      · rfl)

/-! ## The row-wise softmax, whole -/

/-- The vector unit's softmax of a block of rows: the lane maximum kept as a column and subtracted, the exponential,
    the lane sum kept as a column, the quotient. -/
theorem softmax_vector_form {m n : Nat} (Z : Mat m n)
    (h : Shape.Reduces (⟨2, ![m, n]⟩ : Shape) [(1 : Fin 2)] (⟨1, ![m]⟩ : Shape))
    (hφ₁ : FKind.Formats .f32) (hmax : (0xFF800000#32 : BitVec 32) = FKind.maximumf.neutral .f32 hφ₁)
    (hφ₂ : FKind.Formats .f32) (hadd : (0x00000000#32 : BitVec 32) = FKind.add.neutral .f32 hφ₂)
    (hc : (⟨1, ![m]⟩ : Shape).ShapeCasts ⟨2, ![m, 1]⟩) (hb : (⟨2, ![m, 1]⟩ : Shape).Broadcasts ⟨2, ![m, n]⟩) :
    divf
      (exp (subf Z (broadcastTo (⟨2, ![m, n]⟩ : Shape) (shapeCast (⟨2, ![m, 1]⟩ : Shape)
        (multiReduction .maximumf [(1 : Fin 2)] (⟨1, ![m]⟩ : Shape) Z 0xFF800000#32 h hφ₁ hmax) hc) hb)))
      (broadcastTo (⟨2, ![m, n]⟩ : Shape) (shapeCast (⟨2, ![m, 1]⟩ : Shape)
        (multiReduction .add [(1 : Fin 2)] (⟨1, ![m]⟩ : Shape)
          (exp (subf Z (broadcastTo (⟨2, ![m, n]⟩ : Shape) (shapeCast (⟨2, ![m, 1]⟩ : Shape)
            (multiReduction .maximumf [(1 : Fin 2)] (⟨1, ![m]⟩ : Shape) Z 0xFF800000#32 h hφ₁ hmax) hc) hb)))
          0x00000000#32 h hφ₂ hadd) hc) hb)
      = softmaxRows Z := by
  have hE : exp (subf Z (broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb)) = rowExp Z := by
    funext i
    obtain ⟨p, q, rfl⟩ : ∃ (p : Fin m) (q : Fin n), i = ix2 p q := ⟨i 0, i 1, eq_ix2 i⟩
    show Ideal.exp (Z (ix2 p q) - broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb (ix2 p q))
        = Ideal.exp (Z (ix2 p q) - rowMax Z p)
    rw [column_vector_form, laneMax_eq_rowMax]
  rw [hE]
  funext i
  obtain ⟨p, q, rfl⟩ : ∃ (p : Fin m) (q : Fin n), i = ix2 p q := ⟨i 0, i 1, eq_ix2 i⟩
  show Ideal.div (rowExp Z (ix2 p q)) (broadcastTo (⟨2, ![m, n]⟩ : Shape) (shapeCast (⟨2, ![m, 1]⟩ : Shape)
      (multiReduction .add [(1 : Fin 2)] (⟨1, ![m]⟩ : Shape) (rowExp Z) 0x00000000#32 h hφ₂ hadd) hc) hb (ix2 p q))
    = Ideal.div (rowExp Z (ix2 p q)) (∑ c : Fin n, rowExp Z (ix2 p c))
  rw [column_vector_form, laneSum_eq_rowSum]

/-- The host's softmax of a matrix: the reduce with a maximum body (and one more maximum with minus infinity), the
    two broadcasts, the subtraction, the exponential, the sum, the two broadcasts, the quotient. -/
theorem softmax_host_form {m n : Nat} (Z : Mat m n)
    (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel)
    (h0 : (⟨0, ![]⟩ : Shape).BroadcastsInDim ⟨1, ![m]⟩ ![])
    (h1 : (⟨1, ![m]⟩ : Shape).BroadcastsInDim ⟨2, ![m, 1]⟩ ![0])
    (h2 : (⟨2, ![m, 1]⟩ : Shape).BroadcastsInDim ⟨2, ![m, n]⟩ ![0, 1]) :
    Host.divf
      (Host.exp (subf Z (broadcastInDim (⟨2, ![m, n]⟩ : Shape) ![0, 1] h2 (broadcastInDim (⟨2, ![m, 1]⟩ : Shape) ![0] h1
        (maximumf (broadcastInDim (⟨1, ![m]⟩ : Shape) ![] h0 (constant (⟨0, ![]⟩ : Shape) .f32 0xFF800000#32))
          (Host.reduce FloatOps.maximumf Z (constant (⟨0, ![]⟩ : Shape) .f32 0xFF800000#32) h' hu))))))
      (broadcastInDim (⟨2, ![m, n]⟩ : Shape) ![0, 1] h2 (broadcastInDim (⟨2, ![m, 1]⟩ : Shape) ![0] h1
        (Host.reduceAdd
          (Host.exp (subf Z (broadcastInDim (⟨2, ![m, n]⟩ : Shape) ![0, 1] h2 (broadcastInDim (⟨2, ![m, 1]⟩ : Shape) ![0] h1
            (maximumf (broadcastInDim (⟨1, ![m]⟩ : Shape) ![] h0 (constant (⟨0, ![]⟩ : Shape) .f32 0xFF800000#32))
              (Host.reduce FloatOps.maximumf Z (constant (⟨0, ![]⟩ : Shape) .f32 0xFF800000#32) h' hu))))))
          (constant (⟨0, ![]⟩ : Shape) .f32 0x00000000#32) h' hu)))
      = softmaxRows Z := by
  have hE : Host.exp (subf Z (broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))))) = rowExp Z := by
    funext i
    obtain ⟨p, q, rfl⟩ : ∃ (p : Fin m) (q : Fin n), i = ix2 p q := ⟨i 0, i 1, eq_ix2 i⟩
    show Ideal.exp (Z (ix2 p q) - broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))) (ix2 p q))
        = Ideal.exp (Z (ix2 p q) - rowMax Z p)
    rw [column_host_form]
    show Ideal.exp (Z (ix2 p q) - max (Ideal.ofBits .f32 0xFF800000#32)
      (Host.reduce FloatOps.maximumf Z (constant (⟨0, ![]⟩ : Shape) .f32 0xFF800000#32) h' hu (ix1 p))) = _
    rw [ofBits_neg_inf, hostMax_eq_rowMax Z h' h hu, max_bot_left]
  rw [hE]
  funext i
  obtain ⟨p, q, rfl⟩ : ∃ (p : Fin m) (q : Fin n), i = ix2 p q := ⟨i 0, i 1, eq_ix2 i⟩
  show Ideal.div (rowExp Z (ix2 p q)) (broadcastInDim (⟨2, ![m, n]⟩ : Shape) ![0, 1] h2 (broadcastInDim (⟨2, ![m, 1]⟩ : Shape) ![0] h1
      (Host.reduceAdd (rowExp Z) (constant (⟨0, ![]⟩ : Shape) .f32 0x00000000#32) h' hu)) (ix2 p q))
    = Ideal.div (rowExp Z (ix2 p q)) (∑ c : Fin n, rowExp Z (ix2 p c))
  rw [column_host_form, hostSum_eq_rowSum (rowExp Z) h' h hu]

end DenseRows

end
-- ==== Proof.Layer0.lean ====
/-
  The first pallas_call: s1 = x · W1, ten row bands of a thousand rows.

  Point t stages rows 1000 t … 1000 t + 999 of x and the whole of W1, multiplies them into a zero accumulator, and
  writes the product back as rows 1000 t … 1000 t + 999 of the result. A band of rows of x times W1 is that band of
  rows of x · W1, and the ten bands tile the result, so the array the region leaves is the matrix product of the two
  arrays it found.
-/
import proofs.«174805_g25812753449811_rerun558fix_472_5_alg».proof.Proof.Gen.KernelIdeal.Frame
import proofs.«174805_g25812753449811_rerun558fix_472_5_alg».proof.Proof.LibDenseForms
import Idealize.ShloMosaic.Lib.Pipeline.Value

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat Cfg Window)
open DenseRows

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the product of the two blocks it loads. -/
theorem payload (x0 : Vec Ideal S1000x1433 .f32) (x1 : Vec Ideal S1433x512 .f32) : k0_pay1 x0 x1 = mm x0 x1 := by
  unfold k0_pay1
  exact matmul_plain_eq_mm none x0 x1

/-- The index maps over the grid: x and the result move one band of rows per point, W1 stays. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of x's block at point t is row 1000 t + p of x. -/
theorem x_block (c : Dev nD) (t : Fin cfg0.N) (p : Fin 1000) (k : Fin 1433) :
    (iblk0 V c 0 t : Vec Ideal S1000x1433 .f32) (ix2 p k)
      = V c main_arg0 (ix2 (⟨t.val * 1000 + p.val, by have := t.isLt; have : t.val < 10 := this; omega⟩ : Fin 10000) k) := by
  unfold iblk0
  rw [View.read_apply]
  refine congrArg (V c main_arg0) ?_
  obtain ⟨e0, e1, -⟩ := index_maps t
  funext a; apply Fin.ext
  match a with
  | ⟨0, _⟩ => show win0_0.index t (0 : Fin 2) * 1000 + 1 * p.val = t.val * 1000 + p.val; omega
  | ⟨1, _⟩ => show win0_0.index t (1 : Fin 2) * 1433 + 1 * k.val = k.val; omega

/-- W1's block at every point is W1. -/
theorem w_block (c : Dev nD) (t : Fin cfg0.N) : (iblk0 V c 1 t : Vec Ideal S1433x512 .f32) = V c main_arg2 := by
  funext y
  unfold iblk0
  rw [View.read_apply]
  refine congrArg (V c main_arg2) ?_
  obtain ⟨-, -, e2, e3, -⟩ := index_maps t
  funext a; apply Fin.ext
  match a with
  | ⟨0, _⟩ => show win0_1.index t (0 : Fin 2) * 1433 + 1 * (y 0).val = (y 0).val; omega
  | ⟨1, _⟩ => show win0_1.index t (1 : Fin 2) * 512 + 1 * (y 1).val = (y 1).val; omega

/-- What point t writes back is band t of the product of the two arrays. -/
theorem flushed (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz]
  simp only [View.ld_unit_zero (S := S1000x1433) hz, View.ld_unit_zero (S := S1433x512) hz]
  rw [payload]
  funext j
  obtain ⟨p, q, rfl⟩ : ∃ (p : Fin 1000) (q : Fin 512), j = ix2 p q := ⟨j 0, j 1, eq_ix2 j⟩
  have ht : t.val < 10 := t.isLt
  have he : ((cfg0.win 2).blk t).view.emb (ix2 p q) = ix2 (⟨t.val * 1000 + p.val, by omega⟩ : Fin 10000) q := by
    obtain ⟨-, -, -, -, e4, e5⟩ := index_maps t
    funext a; apply Fin.ext
    match a with
    | ⟨0, _⟩ => show win0_2.index t (0 : Fin 2) * 1000 + 1 * p.val = t.val * 1000 + p.val; omega
    | ⟨1, _⟩ => show win0_2.index t (1 : Fin 2) * 512 + 1 * q.val = q.val; omega
  show mm (iblk0 V c 0 t : Vec Ideal S1000x1433 .f32) (iblk0 V c 1 t : Vec Ideal S1433x512 .f32) (ix2 p q)
    = mm (V c main_arg0) (V c main_arg2) (((cfg0.win 2).blk t).view.emb (ix2 p q))
  rw [he, w_block V c t]
  exact mm_rows _ (V c main_arg0) (V c main_arg2) p _ (fun k => x_block V c t p k) q

/-- An index is in point t's block iff each coordinate is in the block's range. -/
theorem mem_block (t : Fin cfg0.N) (i : S10000x512.Idx) :
    i ∈ ((cfg0.win 2).blk t).view.set ↔ ∀ a : Fin 2, win0_2.index t a * S1000x512.size a ≤ (i a).val
      ∧ (i a).val < win0_2.index t a * S1000x512.size a + S1000x512.size a := by
  show i ∈ ((View.whole main_v2).slice (win0_2.rect t)).set ↔ _
  rw [View.set_slice_whole, Rect.mem_set_unit]
  exact Iff.rfl

/-- The ten bands tile the result: row r is in band r / 1000. -/
theorem cover (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  refine ⟨⟨(i 0).val / 1000, by show (i 0).val / 1000 < 10; omega⟩, flush0_2 _, ?_⟩
  rw [mem_block]
  obtain ⟨-, -, -, -, e4, e5⟩ := index_maps ⟨(i 0).val / 1000, by show (i 0).val / 1000 < 10; omega⟩
  have e4' : win0_2.index ⟨(i 0).val / 1000, by show (i 0).val / 1000 < 10; omega⟩ (0 : Fin 2) = (i 0).val / 1000 := e4
  intro a
  match a with
  | ⟨0, _⟩ =>
    show win0_2.index _ (0 : Fin 2) * 1000 ≤ (i 0).val ∧ (i 0).val < win0_2.index _ (0 : Fin 2) * 1000 + 1000
    rw [e4']; omega
  | ⟨1, _⟩ =>
    show win0_2.index _ (1 : Fin 2) * 512 ≤ (i 1).val ∧ (i 1).val < win0_2.index _ (1 : Fin 2) * 512 + 512
    rw [e5]; omega

/-- The array the region leaves is the product of the two arrays it found. -/
theorem final (c : Dev nD) : (dat0 V c).arrAt 2 cfg0.N = mm (V c main_arg0) (V c main_arg2) :=
  (dat0 V c).arrAt_eq_of_cover 2 _ (fun t _ => flushed V c t) cover

end Cert.KernelIdeal.Layer0

end
-- ==== Proof.Gcn.lean ====
/-
  The two-layer graph convolution, as functions of whole matrices over the extended reals.

  With x the node features, adj the adjacency matrix, W1, b1 and W2, b2 the two layers' weights and biases:
    s1  = x · W1
    s2  = relu (adj · s1 + b1) · W2
    out = softmax over each row of (adj · s2 + b2).
  Both programs compute this; the kernel in three passes over row bands, the reference in one pass over whole arrays.
-/
import proofs.«174805_g25812753449811_rerun558fix_472_5_alg».proof.Proof.LibDenseForms

noncomputable section

namespace Gcn

open Idealize.ShloMosaic DenseRows

/-- The hidden layer followed by the second weight matrix: relu (adj · s1 + b) · W2. -/
def hiddenTimesW2 {m k h n : Nat} (adj : Mat m k) (s1 : Mat k h) (b : Mat 1 h) (w2 : Mat h n) : Mat m n :=
  mm (relu (addRow (mm adj s1) b)) w2

/-- The class scores adj · s2 + b and their row-wise softmax. -/
def classProbabilities {m k n : Nat} (adj : Mat m k) (s2 : Mat k n) (b : Mat 1 n) : Mat m n :=
  softmaxRows (addRow (mm adj s2) b)

/-- The whole forward pass on ten thousand nodes. -/
def forward (x : Mat 10000 1433) (adj : Mat 10000 10000) (w1 : Mat 1433 512) (b1 : Col 512) (w2 : Mat 512 7)
    (b2 : Col 7) : Mat 10000 7 :=
  classProbabilities adj (hiddenTimesW2 adj (mm x w1) (asRow b1) w2) (asRow b2)

end Gcn

end
-- ==== Proof.Layer1.lean ====
/-
  The second pallas_call: s2 = relu (adj · s1 + b1) · W2, twenty-five row bands of four hundred rows.

  Point t stages rows 400 t … 400 t + 399 of the adjacency matrix and the whole of s1, of the bias row and of W2;
  it multiplies the band into s1, adds the bias row to every row, takes the positive part, multiplies by W2, and
  writes the result back as rows 400 t … 400 t + 399. Every step is row-local, so a band of rows of the adjacency
  matrix gives that band of rows of the result computed from the whole matrix, and the twenty-five bands tile it.
-/
import proofs.«174805_g25812753449811_rerun558fix_472_5_alg».proof.Proof.Gen.KernelIdeal.Frame
import proofs.«174805_g25812753449811_rerun558fix_472_5_alg».proof.Proof.Gcn
import Idealize.ShloMosaic.Lib.Pipeline.Value

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)
open DenseRows Gcn

variable (V : (c : Dev nD) → (b : Ref sig .tc) → Buf (Elt Ideal) ((c : Thread nD τ).loc b))

theorem hz : (![0, 0] : Fin 2 → Nat) = fun _ => 0 := funext fun a => by fin_cases a <;> rfl

/-- The vector unit's spelling of the layer on four values: two products into zero splats, a one-row broadcast
    added, a maximum with a zero splat. -/
theorem vector_spelling (x0 : FVec Ideal S400x10000 .f32) (x1 : FVec Ideal S10000x512 .f32) (x2 : FVec Ideal S1x512 .f32)
    (x3 : FVec Ideal S512x7 .f32) :
    matmul dot_S400x512_S512x7_S400x7_1_0_0_1_n_n none
      (maximumf
        (addf (matmul dot_S400x10000_S10000x512_S400x512_1_0_0_1_n_n none x0
            (shapeCast S10000x512 x1 shapeCasts_S10000x512_S10000x512) (constant S400x512 .f32 0x00000000#32))
          (broadcastTo S400x512 (shapeCast S1x512 x2 shapeCasts_S1x512_S1x512) broadcasts_S1x512_S400x512))
        (broadcast S400x512 (Scalar.ofBits (F := Ideal) .f32 0x00000000#32)))
      x3 (constant S400x7 .f32 0x00000000#32) = hiddenTimesW2 x0 x1 x2 x3 := by
  have e1 : matmul dot_S400x10000_S10000x512_S400x512_1_0_0_1_n_n none x0
      (shapeCast S10000x512 x1 shapeCasts_S10000x512_S10000x512) (constant S400x512 .f32 0x00000000#32) = mm x0 x1 := by
    rw [shapeCast_self]; exact matmul_plain_eq_mm none x0 x1
  have e2 : addf (mm x0 x1) (broadcastTo S400x512 (shapeCast S1x512 x2 shapeCasts_S1x512_S1x512) broadcasts_S1x512_S400x512)
      = addRow (mm x0 x1) x2 := by
    rw [shapeCast_self]; exact bias_vector_form (mm x0 x1) x2 _
  have e3 : maximumf (addRow (mm x0 x1) x2) (broadcast S400x512 (Scalar.ofBits (F := Ideal) .f32 0x00000000#32))
      = relu (addRow (mm x0 x1) x2) := relu_vector_form _
  rw [e1, e2, e3]
  exact matmul_plain_eq_mm none _ x3

/-- The body's one stored value is that function of the four blocks it loads. -/
theorem payload (x0 : Vec Ideal S400x10000 .f32) (x1 : Vec Ideal S10000x512 .f32) (x2 : Vec Ideal S1x512 .f32)
    (x3 : Vec Ideal S512x7 .f32) : k1_pay1 x0 x1 x2 x3 = hiddenTimesW2 x0 x1 x2 x3 := by
  unfold k1_pay1
  exact vector_spelling x0 x1 x2 x3

/-- The index maps over the grid: the adjacency matrix and the result move one band of rows per point, the rest stay. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the adjacency block at point t is row 400 t + p of the adjacency matrix. -/
theorem adj_block (c : Dev nD) (t : Fin cfg1.N) (p : Fin 400) (k : Fin 10000) :
    (iblk1 V c 0 t : Vec Ideal S400x10000 .f32) (ix2 p k)
      = V c main_arg1 (ix2 (⟨t.val * 400 + p.val, by have : t.val < 25 := t.isLt; omega⟩ : Fin 10000) k) := by
  unfold iblk1
  rw [View.read_apply]
  refine congrArg (V c main_arg1) ?_
  obtain ⟨e0, e1, -⟩ := index_maps t
  funext a; apply Fin.ext
  match a with
  | ⟨0, _⟩ => show win1_0.index t (0 : Fin 2) * 400 + 1 * p.val = t.val * 400 + p.val; omega
  | ⟨1, _⟩ => show win1_0.index t (1 : Fin 2) * 10000 + 1 * k.val = k.val; omega

/-- The block of s1 at every point is s1. -/
theorem s1_block (c : Dev nD) (t : Fin cfg1.N) : (iblk1 V c 1 t : Vec Ideal S10000x512 .f32) = V c main_v2 := by
  funext y
  unfold iblk1
  rw [View.read_apply]
  refine congrArg (V c main_v2) ?_
  obtain ⟨-, -, e2, e3, -⟩ := index_maps t
  funext a; apply Fin.ext
  match a with
  | ⟨0, _⟩ => show win1_1.index t (0 : Fin 2) * 10000 + 1 * (y 0).val = (y 0).val; omega
  | ⟨1, _⟩ => show win1_1.index t (1 : Fin 2) * 512 + 1 * (y 1).val = (y 1).val; omega

/-- The bias row's block at every point is the bias row. -/
theorem bias_block (c : Dev nD) (t : Fin cfg1.N) : (iblk1 V c 2 t : Vec Ideal S1x512 .f32) = V c main_v0 := by
  funext y
  unfold iblk1
  rw [View.read_apply]
  refine congrArg (V c main_v0) ?_
  obtain ⟨-, -, -, -, e4, e5, -⟩ := index_maps t
  funext a; apply Fin.ext
  match a with
  | ⟨0, _⟩ => show win1_2.index t (0 : Fin 2) * 1 + 1 * (y 0).val = (y 0).val; omega
  | ⟨1, _⟩ => show win1_2.index t (1 : Fin 2) * 512 + 1 * (y 1).val = (y 1).val; omega

/-- The block of W2 at every point is W2. -/
theorem w2_block (c : Dev nD) (t : Fin cfg1.N) : (iblk1 V c 3 t : Vec Ideal S512x7 .f32) = V c main_arg4 := by
  funext y
  unfold iblk1
  rw [View.read_apply]
  refine congrArg (V c main_arg4) ?_
  obtain ⟨-, -, -, -, -, -, e6, e7, -⟩ := index_maps t
  funext a; apply Fin.ext
  match a with
  | ⟨0, _⟩ => show win1_3.index t (0 : Fin 2) * 512 + 1 * (y 0).val = (y 0).val; omega
  | ⟨1, _⟩ => show win1_3.index t (1 : Fin 2) * 7 + 1 * (y 1).val = (y 1).val; omega

/-- What point t writes back is band t of the layer computed from the whole arrays. -/
theorem flushed (c : Dev nD) (t : Fin cfg1.N) :
    (dat1 V c).flushed 4 t = ((cfg1.win 4).blk t).view.read (Elt Ideal)
      (hiddenTimesW2 (V c main_arg1) (V c main_v2) (V c main_v0) (V c main_arg4)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x512) hz,
    View.ld_unit_zero (S := S1x512) hz, View.ld_unit_zero (S := S512x7) hz]
  rw [payload]
  funext j
  obtain ⟨p, q, rfl⟩ : ∃ (p : Fin 400) (q : Fin 7), j = ix2 p q := ⟨j 0, j 1, eq_ix2 j⟩
  have ht : t.val < 25 := t.isLt
  have he : ((cfg1.win 4).blk t).view.emb (ix2 p q) = ix2 (⟨t.val * 400 + p.val, by omega⟩ : Fin 10000) q := by
    obtain ⟨-, -, -, -, -, -, -, -, e8, e9⟩ := index_maps t
    funext a; apply Fin.ext
    match a with
    | ⟨0, _⟩ => show win1_4.index t (0 : Fin 2) * 400 + 1 * p.val = t.val * 400 + p.val; omega
    | ⟨1, _⟩ => show win1_4.index t (1 : Fin 2) * 7 + 1 * q.val = q.val; omega
  show hiddenTimesW2 (iblk1 V c 0 t : Vec Ideal S400x10000 .f32) (iblk1 V c 1 t : Vec Ideal S10000x512 .f32)
      (iblk1 V c 2 t : Vec Ideal S1x512 .f32) (iblk1 V c 3 t : Vec Ideal S512x7 .f32) (ix2 p q)
    = hiddenTimesW2 (V c main_arg1) (V c main_v2) (V c main_v0) (V c main_arg4) (((cfg1.win 4).blk t).view.emb (ix2 p q))
  rw [he, s1_block V c t, bias_block V c t, w2_block V c t]
  unfold hiddenTimesW2
  exact mm_rows _ _ (V c main_arg4) p _ (fun k =>
    relu_rows _ _ p _ (fun k' =>
      addRow_rows _ _ (V c main_v0) p _ (fun k'' =>
        mm_rows _ (V c main_arg1) (V c main_v2) p _ (fun k''' => adj_block V c t p k''') k'') k') k) q

/-- An index is in point t's block iff each coordinate is in the block's range. -/
theorem mem_block (t : Fin cfg1.N) (i : S10000x7.Idx) :
    i ∈ ((cfg1.win 4).blk t).view.set ↔ ∀ a : Fin 2, win1_4.index t a * S400x7.size a ≤ (i a).val
      ∧ (i a).val < win1_4.index t a * S400x7.size a + S400x7.size a := by
  show i ∈ ((View.whole main_v3).slice (win1_4.rect t)).set ↔ _
  rw [View.set_slice_whole, Rect.mem_set_unit]
  exact Iff.rfl

/-- The twenty-five bands tile the result: row r is in band r / 400. -/
theorem cover (i : S10000x7.Idx) :
    ∃ t : Fin cfg1.N, (cfg1.win 4).flush t = true ∧ i ∈ ((cfg1.win 4).blk t).view.set := by
  have hi0 : (i 0).val < 10000 := (i 0).isLt
  have hi1 : (i 1).val < 7 := (i 1).isLt
  refine ⟨⟨(i 0).val / 400, by show (i 0).val / 400 < 25; omega⟩, flush1_4 _, ?_⟩
  rw [mem_block]
  obtain ⟨-, -, -, -, -, -, -, -, e8, e9⟩ := index_maps ⟨(i 0).val / 400, by show (i 0).val / 400 < 25; omega⟩
  have e8' : win1_4.index ⟨(i 0).val / 400, by show (i 0).val / 400 < 25; omega⟩ (0 : Fin 2) = (i 0).val / 400 := e8
  intro a
  match a with
  | ⟨0, _⟩ =>
    show win1_4.index _ (0 : Fin 2) * 400 ≤ (i 0).val ∧ (i 0).val < win1_4.index _ (0 : Fin 2) * 400 + 400
    rw [e8']; omega
  | ⟨1, _⟩ =>
    show win1_4.index _ (1 : Fin 2) * 7 ≤ (i 1).val ∧ (i 1).val < win1_4.index _ (1 : Fin 2) * 7 + 7
    rw [e9]; omega

/-- The array the region leaves is the layer computed from the four arrays it found. -/
theorem final (c : Dev nD) : (dat1 V c).arrAt 4 cfg1.N
    = hiddenTimesW2 (V c main_arg1) (V c main_v2) (V c main_v0) (V c main_arg4) :=
  (dat1 V c).arrAt_eq_of_cover 4 _ (fun t _ => flushed V c t) cover

end Cert.KernelIdeal.Layer1

end
-- ==== Proof.Layer2.lean ====
/-
  The third pallas_call: out = softmax over each row of adj · s2 + b2, twenty-five row bands of four hundred rows.

  Point t stages rows 400 t … 400 t + 399 of the adjacency matrix and the whole of s2 and of the bias row; it
  multiplies the band into s2, adds the bias row to every row, and replaces each row by its softmax: the row's
  maximum is subtracted, the exponential taken, and each entry divided by its row's sum. Every step is row-local,
  so a band of rows of the adjacency matrix gives that band of rows of the result computed from the whole matrix,
  and the twenty-five bands tile it.
-/
import proofs.«174805_g25812753449811_rerun558fix_472_5_alg».proof.Proof.Gen.KernelIdeal.Frame
import proofs.«174805_g25812753449811_rerun558fix_472_5_alg».proof.Proof.Gcn
import Idealize.ShloMosaic.Lib.Pipeline.Value

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)
open DenseRows Gcn

variable (V : (c : Dev nD) → (b : Ref sig .tc) → Buf (Elt Ideal) ((c : Thread nD τ).loc b))

theorem hz : (![0, 0] : Fin 2 → Nat) = fun _ => 0 := funext fun a => by fin_cases a <;> rfl

/-- The vector unit's spelling of the class scores on three values: a product into a zero splat and a one-row
    broadcast added. -/
theorem scores_spelling (x0 : FVec Ideal S400x10000 .f32) (x1 : FVec Ideal S10000x7 .f32) (x2 : FVec Ideal S1x7 .f32) :
    addf (matmul dot_S400x10000_S10000x7_S400x7_1_0_0_1_n_n none x0
        (shapeCast S10000x7 x1 shapeCasts_S10000x7_S10000x7) (constant S400x7 .f32 0x00000000#32))
      (broadcastTo S400x7 (shapeCast S1x7 x2 shapeCasts_S1x7_S1x7) broadcasts_S1x7_S400x7)
      = addRow (mm x0 x1) x2 := by
  rw [shapeCast_self, shapeCast_self]
  rw [show matmul dot_S400x10000_S10000x7_S400x7_1_0_0_1_n_n none x0 x1 (constant S400x7 .f32 0x00000000#32) = mm x0 x1
    from matmul_plain_eq_mm none x0 x1]
  exact bias_vector_form (mm x0 x1) x2 _

/-- The body's one stored value is that function of the three blocks it loads. -/
theorem payload (x0 : Vec Ideal S400x10000 .f32) (x1 : Vec Ideal S10000x7 .f32) (x2 : Vec Ideal S1x7 .f32) :
    k2_pay1 x0 x1 x2 = classProbabilities x0 x1 x2 := by
  unfold classProbabilities
  rw [← scores_spelling x0 x1 x2]
  unfold k2_pay1
  exact softmax_vector_form _ reduces_S400x7_S400 (.inl rfl) rfl (.inl rfl) rfl shapeCasts_S400_S400x1 broadcasts_S400x1_S400x7

/-- The index maps over the grid: the adjacency matrix and the result move one band of rows per point, the rest stay. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the adjacency block at point t is row 400 t + p of the adjacency matrix. -/
theorem adj_block (c : Dev nD) (t : Fin cfg2.N) (p : Fin 400) (k : Fin 10000) :
    (iblk2 V c 0 t : Vec Ideal S400x10000 .f32) (ix2 p k)
      = V c main_arg1 (ix2 (⟨t.val * 400 + p.val, by have : t.val < 25 := t.isLt; omega⟩ : Fin 10000) k) := by
  unfold iblk2
  rw [View.read_apply]
  refine congrArg (V c main_arg1) ?_
  obtain ⟨e0, e1, -⟩ := index_maps t
  funext a; apply Fin.ext
  match a with
  | ⟨0, _⟩ => show win2_0.index t (0 : Fin 2) * 400 + 1 * p.val = t.val * 400 + p.val; omega
  | ⟨1, _⟩ => show win2_0.index t (1 : Fin 2) * 10000 + 1 * k.val = k.val; omega

/-- The block of s2 at every point is s2. -/
theorem s2_block (c : Dev nD) (t : Fin cfg2.N) : (iblk2 V c 1 t : Vec Ideal S10000x7 .f32) = V c main_v3 := by
  funext y
  unfold iblk2
  rw [View.read_apply]
  refine congrArg (V c main_v3) ?_
  obtain ⟨-, -, e2, e3, -⟩ := index_maps t
  funext a; apply Fin.ext
  match a with
  | ⟨0, _⟩ => show win2_1.index t (0 : Fin 2) * 10000 + 1 * (y 0).val = (y 0).val; omega
  | ⟨1, _⟩ => show win2_1.index t (1 : Fin 2) * 7 + 1 * (y 1).val = (y 1).val; omega

/-- The bias row's block at every point is the bias row. -/
theorem bias_block (c : Dev nD) (t : Fin cfg2.N) : (iblk2 V c 2 t : Vec Ideal S1x7 .f32) = V c main_v1 := by
  funext y
  unfold iblk2
  rw [View.read_apply]
  refine congrArg (V c main_v1) ?_
  obtain ⟨-, -, -, -, e4, e5, -⟩ := index_maps t
  funext a; apply Fin.ext
  match a with
  | ⟨0, _⟩ => show win2_2.index t (0 : Fin 2) * 1 + 1 * (y 0).val = (y 0).val; omega
  | ⟨1, _⟩ => show win2_2.index t (1 : Fin 2) * 7 + 1 * (y 1).val = (y 1).val; omega

/-- What point t writes back is band t of the layer computed from the whole arrays. -/
theorem flushed (c : Dev nD) (t : Fin cfg2.N) :
    (dat2 V c).flushed 3 t = ((cfg2.win 3).blk t).view.read (Elt Ideal)
      (classProbabilities (V c main_arg1) (V c main_v3) (V c main_v1)) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x7) hz,
    View.ld_unit_zero (S := S1x7) hz]
  rw [payload]
  funext j
  obtain ⟨p, q, rfl⟩ : ∃ (p : Fin 400) (q : Fin 7), j = ix2 p q := ⟨j 0, j 1, eq_ix2 j⟩
  have ht : t.val < 25 := t.isLt
  have he : ((cfg2.win 3).blk t).view.emb (ix2 p q) = ix2 (⟨t.val * 400 + p.val, by omega⟩ : Fin 10000) q := by
    obtain ⟨-, -, -, -, -, -, e6, e7⟩ := index_maps t
    funext a; apply Fin.ext
    match a with
    | ⟨0, _⟩ => show win2_3.index t (0 : Fin 2) * 400 + 1 * p.val = t.val * 400 + p.val; omega
    | ⟨1, _⟩ => show win2_3.index t (1 : Fin 2) * 7 + 1 * q.val = q.val; omega
  show classProbabilities (iblk2 V c 0 t : Vec Ideal S400x10000 .f32) (iblk2 V c 1 t : Vec Ideal S10000x7 .f32)
      (iblk2 V c 2 t : Vec Ideal S1x7 .f32) (ix2 p q)
    = classProbabilities (V c main_arg1) (V c main_v3) (V c main_v1) (((cfg2.win 3).blk t).view.emb (ix2 p q))
  rw [he, s2_block V c t, bias_block V c t]
  unfold classProbabilities
  exact softmaxRows_rows _ _ p _ (fun k =>
    addRow_rows _ _ (V c main_v1) p _ (fun k' =>
      mm_rows _ (V c main_arg1) (V c main_v3) p _ (fun k'' => adj_block V c t p k'') k') k) q

/-- An index is in point t's block iff each coordinate is in the block's range. -/
theorem mem_block (t : Fin cfg2.N) (i : S10000x7.Idx) :
    i ∈ ((cfg2.win 3).blk t).view.set ↔ ∀ a : Fin 2, win2_3.index t a * S400x7.size a ≤ (i a).val
      ∧ (i a).val < win2_3.index t a * S400x7.size a + S400x7.size a := by
  show i ∈ ((View.whole main_v4).slice (win2_3.rect t)).set ↔ _
  rw [View.set_slice_whole, Rect.mem_set_unit]
  exact Iff.rfl

/-- The twenty-five bands tile the result: row r is in band r / 400. -/
theorem cover (i : S10000x7.Idx) :
    ∃ t : Fin cfg2.N, (cfg2.win 3).flush t = true ∧ i ∈ ((cfg2.win 3).blk t).view.set := by
  have hi0 : (i 0).val < 10000 := (i 0).isLt
  have hi1 : (i 1).val < 7 := (i 1).isLt
  refine ⟨⟨(i 0).val / 400, by show (i 0).val / 400 < 25; omega⟩, flush2_3 _, ?_⟩
  rw [mem_block]
  obtain ⟨-, -, -, -, -, -, e6, e7⟩ := index_maps ⟨(i 0).val / 400, by show (i 0).val / 400 < 25; omega⟩
  have e6' : win2_3.index ⟨(i 0).val / 400, by show (i 0).val / 400 < 25; omega⟩ (0 : Fin 2) = (i 0).val / 400 := e6
  intro a
  match a with
  | ⟨0, _⟩ =>
    show win2_3.index _ (0 : Fin 2) * 400 ≤ (i 0).val ∧ (i 0).val < win2_3.index _ (0 : Fin 2) * 400 + 400
    rw [e6']; omega
  | ⟨1, _⟩ =>
    show win2_3.index _ (1 : Fin 2) * 7 ≤ (i 1).val ∧ (i 1).val < win2_3.index _ (1 : Fin 2) * 7 + 7
    rw [e7]; omega

/-- The array the region leaves is the layer computed from the three arrays it found. -/
theorem final (c : Dev nD) : (dat2 V c).arrAt 3 cfg2.N
    = classProbabilities (V c main_arg1) (V c main_v3) (V c main_v1) :=
  (dat2 V c).arrAt_eq_of_cover 3 _ (fun t _ => flushed V c t) cover

end Cert.KernelIdeal.Layer2

end
-- ==== Proof.KernelValue.lean ====
/-
  The kernel program's result array as a function of its six arguments.

  The run's buffer contents at each segment boundary are a fold through @main: the two reshapes of the biases, then
  each region's output array at what its write-backs leave and every other buffer as the region found it. Reading the
  fold back: the first region finds x and W1 as launched and leaves s1 = x · W1; the second finds the adjacency
  matrix, W2 as launched, s1, and b1 reshaped to one row, and leaves s2; the third finds the adjacency matrix, s2,
  and b2 reshaped to one row, and leaves the class probabilities. Composed, that is the forward pass.
-/
import proofs.«174805_g25812753449811_rerun558fix_472_5_alg».proof.Proof.Layer0
import proofs.«174805_g25812753449811_rerun558fix_472_5_alg».proof.Proof.Layer1
import proofs.«174805_g25812753449811_rerun558fix_472_5_alg».proof.Proof.Layer2
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem
open Idealize.ShloMosaic.Pipeline (Dat Cfg Window)
open DenseRows Gcn

variable (m : (ℓ : Loc nD τ sig) → Buf (Elt Ideal) ℓ) (ρ : Dev nD → PrngReg)

/-! ## After the host stretch: the two biases as one-row matrices, everything else as launched -/

/-- A buffer that neither reshape writes holds its launch contents at the first region's entry. -/
theorem entry1_kept (c : Dev nD) (b : Ref sig .tc) (h0 : b ≠ main_v0) (h1 : b ≠ main_v1) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))).trans rfl

/-- The first bias, reshaped, is its one-row matrix. -/
theorem entry1_bias1 (c : Dev nD) :
    W1 m ρ c (Proc.devRef .tc main_v0) = asRow (m ((c : Thread nD τ).loc main_arg3)) := by
  refine Eq.trans ?_ (shapeCast_asRow (m ((c : Thread nD τ).loc main_arg3)) shapeCasts_S512_S1x512)
  show StableHlo.after hostOps0 (W0 m ρ c) (Proc.devRef .tc main_v0) = _
  after_results
  rfl

/-- The second bias, reshaped, is its one-row matrix. -/
theorem entry1_bias2 (c : Dev nD) :
    W1 m ρ c (Proc.devRef .tc main_v1) = asRow (m ((c : Thread nD τ).loc main_arg5)) := by
  refine Eq.trans ?_ (shapeCast_asRow (m ((c : Thread nD τ).loc main_arg5)) shapeCasts_S7_S1x7)
  show StableHlo.after hostOps0 (W0 m ρ c) (Proc.devRef .tc main_v1) = _
  after_results
  rfl

/-! ## The first region leaves s1 -/

theorem exit1_s1 (c : Dev nD) : W2 m ρ c (Proc.devRef .tc main_v2)
    = mm (m ((c : Thread nD τ).loc main_arg0)) (m ((c : Thread nD τ).loc main_arg2)) := by
  refine (W2_arr m ρ c 2).trans ((Layer0.final (V1 m ρ) c).trans ?_)
  rw [show V1 m ρ c main_arg0 = m ((c : Thread nD τ).loc main_arg0) from entry1_kept m ρ c main_arg0 (by decide) (by decide),
    show V1 m ρ c main_arg2 = m ((c : Thread nD τ).loc main_arg2) from entry1_kept m ρ c main_arg2 (by decide) (by decide)]

/-! ## The second region leaves s2 -/

theorem exit2_s2 (c : Dev nD) : W3 m ρ c (Proc.devRef .tc main_v3)
    = hiddenTimesW2 (m ((c : Thread nD τ).loc main_arg1))
        (mm (m ((c : Thread nD τ).loc main_arg0)) (m ((c : Thread nD τ).loc main_arg2)))
        (asRow (m ((c : Thread nD τ).loc main_arg3))) (m ((c : Thread nD τ).loc main_arg4)) := by
  refine (W3_arr m ρ c 4).trans ((Layer1.final (V2 m ρ) c).trans ?_)
  rw [show V2 m ρ c main_arg1 = m ((c : Thread nD τ).loc main_arg1) from
      (W2_of_ne m ρ c main_arg1 (by decide)).trans (entry1_kept m ρ c main_arg1 (by decide) (by decide)),
    show V2 m ρ c main_v2 = mm (m ((c : Thread nD τ).loc main_arg0)) (m ((c : Thread nD τ).loc main_arg2)) from exit1_s1 m ρ c,
    show V2 m ρ c main_v0 = asRow (m ((c : Thread nD τ).loc main_arg3)) from
      (W2_of_ne m ρ c main_v0 (by decide)).trans (entry1_bias1 m ρ c),
    show V2 m ρ c main_arg4 = m ((c : Thread nD τ).loc main_arg4) from
      (W2_of_ne m ρ c main_arg4 (by decide)).trans (entry1_kept m ρ c main_arg4 (by decide) (by decide))]

/-! ## The third region leaves the class probabilities -/

/-- The adjacency matrix, an input array of the second region, is as launched when the third is entered. -/
theorem entry3_adj (c : Dev nD) : W3 m ρ c (Proc.devRef .tc main_arg1) = m ((c : Thread nD τ).loc main_arg1) :=
  calc W3 m ρ c (Proc.devRef .tc main_arg1)
    _ = W2 m ρ c (Proc.devRef .tc main_arg1) :=
        (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = m ((c : Thread nD τ).loc main_arg1) := entry1_kept m ρ c main_arg1 (by decide) (by decide)

/-- The kernel program's result array is the forward pass of its six arguments. -/
theorem value (c : Dev nD) : W4 m ρ c (Proc.devRef .tc main_v4)
    = forward (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (W4_arr m ρ c 3).trans ((Layer2.final (V3 m ρ) c).trans ?_)
  rw [show V3 m ρ c main_arg1 = m ((c : Thread nD τ).loc main_arg1) from entry3_adj m ρ c,
    show V3 m ρ c main_v3 = _ from exit2_s2 m ρ c,
    show V3 m ρ c main_v1 = asRow (m ((c : Thread nD τ).loc main_arg5)) from
      (W3_of_ne m ρ c main_v1 (by decide)).trans ((W2_of_ne m ρ c main_v1 (by decide)).trans (entry1_bias2 m ρ c))]
  rfl

end Cert.KernelIdeal.Result

end
-- ==== Proof.RefStages.lean ====
/-
  The reference computes the forward pass: its host operations, read one stage at a time.

  Each dot_general is a matrix product, each bias a row broadcast down the rows and added, the relu a maximum with a
  broadcast zero, and the softmax the reduce-broadcast-subtract-exponentiate-reduce-broadcast-divide chain. The
  one operation the host adds, a maximum of the row maxima with minus infinity, changes nothing.
-/
import proofs.«174805_g25812753449811_rerun558fix_472_5_alg».proof.Proof.Gen.ReferenceIdeal.Read
import proofs.«174805_g25812753449811_rerun558fix_472_5_alg».proof.Proof.Gcn

noncomputable section

namespace Cert.ReferenceIdeal.Stages

open Cert.ReferenceIdeal Cert.ReferenceIdeal.Gen Cert.ReferenceIdeal.Read
open Idealize.ShloMosaic Idealize.ShloMosaic.ValueIdx
open DenseRows Gcn

variable (x0 : FVec Ideal S10000x1433 .f32) (x1 : FVec Ideal S10000x10000 .f32) (x2 : FVec Ideal S1433x512 .f32)
  (x3 : FVec Ideal S512 .f32) (x4 : FVec Ideal S512x7 .f32) (x5 : FVec Ideal S7 .f32)

/-- s1 = x · W1. -/
theorem support1 : val_main_v0 (F := Ideal) x0 x2 = mm x0 x2 := by
  unfold val_main_v0
  exact dotGeneral_plain_eq_mm none x0 x2

/-- adj · s1. -/
theorem aggregated1 : val_main_v1 (F := Ideal) x0 x1 x2 = mm x1 (mm x0 x2) := by
  unfold val_main_v1
  rw [support1]
  exact dotGeneral_plain_eq_mm none x1 (mm x0 x2)

/-- adj · s1 + b1. -/
theorem preactivation1 : val_main_v4 (F := Ideal) x0 x1 x2 x3 = addRow (mm x1 (mm x0 x2)) (asRow x3) := by
  unfold val_main_v4 val_main_v3 val_main_v2
  rw [aggregated1, broadcastInDim_asRow]
  exact bias_host_form _ _ _

/-- relu (adj · s1 + b1). -/
theorem hidden : val_main_v5 (F := Ideal) x0 x1 x2 x3 = relu (addRow (mm x1 (mm x0 x2)) (asRow x3)) := by
  unfold val_main_v5 val_main_call0_v0 val_main_call0_cst
  rw [preactivation1]
  exact relu_host_form _ _

/-- s2 = relu (adj · s1 + b1) · W2. -/
theorem support2 : val_main_v6 (F := Ideal) x0 x1 x2 x3 x4 = hiddenTimesW2 x1 (mm x0 x2) (asRow x3) x4 := by
  unfold val_main_v6 hiddenTimesW2
  rw [hidden]
  exact dotGeneral_plain_eq_mm none _ x4

/-- adj · s2 + b2. -/
theorem scores : val_main_v10 (F := Ideal) x0 x1 x2 x3 x4 x5
    = addRow (mm x1 (hiddenTimesW2 x1 (mm x0 x2) (asRow x3) x4)) (asRow x5) := by
  unfold val_main_v10 val_main_v9 val_main_v8 val_main_v7
  rw [support2, broadcastInDim_asRow]
  rw [show Host.dotGeneral dot_S10000x10000_S10000x7_S10000x7_1_0_0_1_n_n none x1 (hiddenTimesW2 x1 (mm x0 x2) (asRow x3) x4)
      = mm x1 (hiddenTimesW2 x1 (mm x0 x2) (asRow x3) x4) from dotGeneral_plain_eq_mm none x1 _]
  exact bias_host_form _ _ _

/-- The result: the row-wise softmax of the scores, which is the forward pass. -/
theorem result : val_main_v21 (F := Ideal) x0 x1 x2 x3 x4 x5 = forward x0 x1 x2 x3 x4 x5 := by
  unfold forward classProbabilities
  rw [← scores x0 x1 x2 x3 x4 x5]
  unfold val_main_v21 val_main_v20 val_main_v19 val_main_v18 val_main_v17 val_main_v16 val_main_v15 val_main_v14
    val_main_v13 val_main_v12 val_main_v11 val_main_cst val_main_cst_0 val_main_cst_1
  exact softmax_host_form (val_main_v10 (F := Ideal) x0 x1 x2 x3 x4 x5) reducesTo_S10000x7_S10000_d1 (by decide) h_S_
    bcast_S_S10000 bcast_S10000_S10000x1_0 bcast_S10000x1_S10000x7_0_1

end Cert.ReferenceIdeal.Stages

end
-- ==== Proof.lean ====
/-
  A two-layer graph convolution on ten thousand nodes, softmax (adj · (relu (adj · (x · W1) + b1) · W2) + b2) over
  each row, computed by a kernel program of three pallas_calls and by a plain jnp reference; the two agree entry by
  entry over the extended reals.

  The kernel program makes three passes over row bands. The first computes s1 = x · W1, a thousand rows at a time.
  The second streams the adjacency matrix four hundred rows at a time against the whole of s1 and writes only
  s2 = relu (adj · s1 + b1) · W2. The third streams the adjacency matrix again against s2 and writes the row-wise
  softmax of adj · s2 + b2. The reference does the same with whole arrays.

  Why they agree. Every step of every pass is ROW-LOCAL: row p of a product A · B, of A plus a bias row, of the
  positive part of A, and of the row-wise softmax of A depends on row p of A only. So what a pass computes from a band
  of rows is that band of rows of what the whole-array computation gives, and since the bands of each pass tile its
  output array, the array each pass leaves is the whole-array function of the arrays it found. A product accumulated
  into a zero accumulator is the product (0 + x = x), the reference's extra maximum of each row maximum with minus
  infinity changes nothing (max ⊥ x = x), and both sides sum and take maxima over the same index sets, so no law of
  real arithmetic that could fail at an infinity is used and the precondition is never opened.

  The three frames: the two kernel programs' are the generated frame certificates; the reference's is its generated
  run with the result forgotten. The idealization rewrote no operation, so there is nothing to preserve.
-/
import proofs.«174805_g25812753449811_rerun558fix_472_5_alg».proof.Defs
import proofs.«174805_g25812753449811_rerun558fix_472_5_alg».proof.Proof.Gen.Kernel
import proofs.«174805_g25812753449811_rerun558fix_472_5_alg».proof.Proof.Gen.Kernel.Skeleton
import proofs.«174805_g25812753449811_rerun558fix_472_5_alg».proof.Proof.Gen.Kernel.Launch
import proofs.«174805_g25812753449811_rerun558fix_472_5_alg».proof.Proof.Gen.Kernel.Points
import proofs.«174805_g25812753449811_rerun558fix_472_5_alg».proof.Proof.Gen.Kernel.Frame
import proofs.«174805_g25812753449811_rerun558fix_472_5_alg».proof.Proof.Gen.KernelIdeal
import proofs.«174805_g25812753449811_rerun558fix_472_5_alg».proof.Proof.Gen.KernelIdeal.Skeleton
import proofs.«174805_g25812753449811_rerun558fix_472_5_alg».proof.Proof.Gen.KernelIdeal.Launch
import proofs.«174805_g25812753449811_rerun558fix_472_5_alg».proof.Proof.Gen.KernelIdeal.Points
import proofs.«174805_g25812753449811_rerun558fix_472_5_alg».proof.Proof.Gen.KernelIdeal.Frame
import proofs.«174805_g25812753449811_rerun558fix_472_5_alg».proof.Proof.Gen.ReferenceIdeal
import proofs.«174805_g25812753449811_rerun558fix_472_5_alg».proof.Proof.Gen.ReferenceIdeal.Run
import proofs.«174805_g25812753449811_rerun558fix_472_5_alg».proof.Proof.Gen.ReferenceIdeal.Read
import proofs.«174805_g25812753449811_rerun558fix_472_5_alg».proof.Proof.Gen.Pre_finite_inputs
import proofs.«174805_g25812753449811_rerun558fix_472_5_alg».proof.Proof.KernelRun
import proofs.«174805_g25812753449811_rerun558fix_472_5_alg».proof.Proof.KernelValue
import proofs.«174805_g25812753449811_rerun558fix_472_5_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the forward pass of the arguments in their result arrays: the kernel program's run read
    through its three regions, the reference's run read one stage at a time, and the arguments agree. -/
theorem algebraic : Cert.algebraic_KernelIdeal_ReferenceIdeal := by
  intro m ρ m' ρ' _ hagree
  refine ⟨fun c => Gcn.forward
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.value m ρ c), (h c).2⟩)
      (Cert.KernelIdeal.Result.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v21_eq, Cert.ReferenceIdeal.Stages.result,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts,
  Cert.Pre_finite_inputs.Gen.facts, frame_kernel, frame_kernelIdeal, frame_reference, preserves, algebraic⟩

end Cert.Proof

end
